-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S16384 : Shape := ⟨1, ![16384]⟩
abbrev S8192 : Shape := ⟨1, ![8192]⟩
abbrev S1024 : Shape := ⟨1, ![1024]⟩
abbrev S8192x16384 : Shape := ⟨2, ![8192, 16384]⟩
abbrev S1024x8192 : Shape := ⟨2, ![1024, 8192]⟩
abbrev S256x256 : Shape := ⟨2, ![256, 256]⟩
abbrev S512x256 : Shape := ⟨2, ![512, 256]⟩
abbrev S256x64 : Shape := ⟨2, ![256, 64]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S1024x8192 : S_.BroadcastsInDim S1024x8192 (![] : Fin 0 → Fin S1024x8192.rank)
  reducesTo_S1024x8192_S_d0_1 : S1024x8192.ReducesTo [0, 1] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg7 : FVec F S512x256 .f32) (main_arg8 : FVec F S256x64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S512x256 .f32 := Host.absf main_arg7
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x64 .f32 := Host.absf main_arg8
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  main_v28

def fn {F : FTy → Type} [FloatOps F] (main_arg0 : FVec F S200000x128 .f32) (main_arg1 : IVec S16384 32) (main_arg2 : IVec S8192 32) (main_arg3 : IVec S1024 32) (main_arg4 : FVec F S8192x16384 .f32) (main_arg5 : FVec F S1024x8192 .f32) (main_arg6 : FVec F S256x256 .f32) (main_arg7 : FVec F S512x256 .f32) (main_arg8 : FVec F S256x64 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S8192x16384 .f32 := Host.absf main_arg4
  let main_cst_0 : FVec F S_ .f32 := constant S_ .f32 0x7F800000#32
  let main_v5 : FVec F S8192x16384 .f32 := broadcastInDim S8192x16384 ![] bcast_S_S8192x16384 main_cst_0
  let main_v6 : IVec S8192x16384 1 := cmpf .olt main_v4 main_v5
  let main_c_1 : IVec S_ 1 := constantI S_ 1 1#1
  let main_v7 : IVec S_ 1 := (fun x v => Host.reduce IntOp.andi x v reducesTo_S8192x16384_S_d0_1 h_S_) main_v6 main_c_1
  let main_v8 : IVec S_ 1 := andi main_v3 main_v7
  let main_v9 : FVec F S1024x8192 .f32 := Host.absf main_arg5
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_v13 main_v16
-- ==== Kernel.lean ====
abbrev S200000x128 : Shape := ⟨2, ![200000, 128]⟩
abbrev S16384 : Shape := ⟨1, ![16384]⟩
abbrev S8192 : Shape := ⟨1, ![8192]⟩
abbrev S1024 : Shape := ⟨1, ![1024]⟩
abbrev S8192x16384 : Shape := ⟨2, ![8192, 16384]⟩
abbrev S1024x8192 : Shape := ⟨2, ![1024, 8192]⟩
abbrev S256x256 : Shape := ⟨2, ![256, 256]⟩
abbrev S512x256 : Shape := ⟨2, ![512, 256]⟩
abbrev S256x64 : Shape := ⟨2, ![256, 64]⟩
abbrev S_ : Shape := ⟨0, ![]⟩
abbrev S16384x1 : Shape := ⟨2, ![16384, 1]⟩
abbrev S16384x128 : Shape := ⟨2, ![16384, 128]⟩
abbrev S8192x1 : Shape := ⟨2, ![8192, 1]⟩
abbrev S8192x128 : Shape := ⟨2, ![8192, 128]⟩
abbrev S8192x256 : Shape := ⟨2, ![8192, 256]⟩
abbrev S128x16384 : Shape := ⟨2, ![128, 16384]⟩
abbrev S128x128 : Shape := ⟨2, ![128, 128]⟩
abbrev S128x256 : Shape := ⟨2, ![128, 256]⟩
abbrev S1024x1 : Shape := ⟨2, ![1024, 1]⟩
abbrev S1024x256 : Shape := ⟨2, ![1024, 256]⟩
abbrev S1024x64 : Shape := ⟨2, ![1024, 64]⟩
abbrev S128x8192 : Shape := ⟨2, ![128, 8192]⟩
abbrev S128x64 : Shape := ⟨2, ![128, 64]⟩
abbrev S128x512 : Shape := ⟨2, ![128, 512]⟩

abbrev nBuf : Space → Nat
  | .hbm => 38
  | .vmem => 17
  | .smem => 0
  | _ => 0

abbrev bufTy : (tb : Table) → Fin (tcTables nBuf tb) → BufTy
  | .hbm, ⟨0, _⟩ => ⟨S200000x128, .f32⟩
  | .hbm, ⟨1, _⟩ => ⟨S16384, .i32⟩
  | .hbm, ⟨2, _⟩ => ⟨S8192, .i32⟩
  | .hbm, ⟨3, _⟩ => ⟨S1024, .i32⟩
  | .hbm, ⟨4, _⟩ => ⟨S8192x16384, .f32⟩
  | .hbm, ⟨5, _⟩ => ⟨S1024x8192, .f32⟩
  | .hbm, ⟨6, _⟩ => ⟨S256x256, .f32⟩
  | .hbm, ⟨7, _⟩ => ⟨S512x256, .f32⟩
  | .hbm, ⟨8, _⟩ => ⟨S256x64, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x128, .f32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x128, .f32⟩
  | .hbm, ⟨27, _⟩ => ⟨S8192x256, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x256, .f32⟩
  | .hbm, ⟨37, _⟩ => ⟨S1024x64, .f32⟩
  | .local _ .vmem, ⟨0, _⟩ => ⟨S128x16384, .f32⟩
  | .local _ .vmem, ⟨1, _⟩ => ⟨S128x16384, .f32⟩
  | .local _ .vmem, ⟨2, _⟩ => ⟨S16384x128, .f32⟩
  | .local _ .vmem, ⟨3, _⟩ => ⟨S128x128, .f32⟩
  | .local _ .vmem, ⟨4, _⟩ => ⟨S128x128, .f32⟩
  | .local _ .vmem, ⟨5, _⟩ => ⟨S256x256, .f32⟩
  | .local _ .vmem, ⟨6, _⟩ => ⟨S128x256, .f32⟩
  | .local _ .vmem, ⟨7, _⟩ => ⟨S128x256, .f32⟩
  | .local _ .vmem, ⟨8, _⟩ => ⟨S128x8192, .f32⟩
  | .local _ .vmem, ⟨9, _⟩ => ⟨S128x8192, .f32⟩
  | .local _ .vmem, ⟨10, _⟩ => ⟨S8192x256, .f32⟩
  | .local _ .vmem, ⟨11, _⟩ => ⟨S128x256, .f32⟩
  | .local _ .vmem, ⟨12, _⟩ => ⟨S128x256, .f32⟩
  | .local _ .vmem, ⟨13, _⟩ => ⟨S512x256, .f32⟩
  | .local _ .vmem, ⟨14, _⟩ => ⟨S256x64, .f32⟩
  | .local _ .vmem, ⟨15, _⟩ => ⟨S128x64, .f32⟩
  | .local _ .vmem, ⟨16, _⟩ => ⟨S128x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S8192 : S_.BroadcastsInDim S8192 (![] : Fin 0 → Fin S8192.rank)
  bcast_S8192_S8192x1_0 : S8192.BroadcastsInDim S8192x1 (![0] : Fin 1 → Fin S8192x1.rank)
  inb_S128x16384_S128x16384_0_0 : ∀ a, (![0, 0] : Fin 2 → Nat) a + S128x16384.size a ≤ S128x16384.size a
  h_S128x16384 : 0 < S128x16384.numel
  bitsLt_bf16_f32 : FTy.bits .bf16 < FTy.bits .f32
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S128x128_S128x128_S128x256_d1 : Shape.Concatenates [S128x128, S128x128] S128x256 1
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  bcast_S_S1024 : S_.BroadcastsInDim S1024 (![] : Fin 0 → Fin S1024.rank)
  bcast_S1024_S1024x1_0 : S1024.BroadcastsInDim S1024x1 (![0] : Fin 1 → Fin S1024x1.rank)
  inb_S128x8192_S128x8192_0_0 : ∀ a, (![0, 0] : Fin 2 → Nat) a + S128x8192.size a ≤ S128x8192.size a
  h_S128x8192 : 0 < S128x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  shapeCasts_S128x256_S128x256 : S128x256.ShapeCasts S128x256
  concatenates_S128x256_S128x256_S128x512_d1 : Shape.Concatenates [S128x256, S128x256] S128x512 1
  inb_S512x256_S512x256_0_0 : ∀ a, (![0, 0] : Fin 2 → Nat) a + S512x256.size a ≤ S512x256.size a
  h_S512x256 : 0 < S512x256.numel
  inb_S256x64_S256x64_0_0 : ∀ a, (![0, 0] : Fin 2 → Nat) a + S256x64.size a ≤ S256x64.size a
  h_S256x64 : 0 < S256x64.numel
  inb_S128x64_S128x64_0_0 : ∀ a, (![0, 0] : Fin 2 → Nat) a + S128x64.size a ≤ S128x64.size a
  h_S128x64 : 0 < S128x64.numel
  gather_S200000x128_S16384x1_S16384x128_1_0_n_n_0_1_1128_wf : GatherDims.WF S200000x128 S16384x1 S16384x128 [1] [0] [] [0] [] 1 ![1, 128]
  gather_S16384x128_S8192x1_S8192x128_1_0_n_n_0_1_1128_wf : GatherDims.WF S16384x128 S8192x1 S8192x128 [1] [0] [] [0] [] 1 ![1, 128]
  dot_S128x16384_S16384x128_S128x128_1_0_0_1_n_n_wf : DotDims.WF S128x16384 S16384x128 S128x128 [1] [0] [0] [1] [] []
  dot_S128x256_S256x256_S128x256_1_0_0_1_n_n_wf : DotDims.WF S128x256 S256x256 S128x256 [1] [0] [0] [1] [] []
  gather_S8192x256_S1024x1_S1024x256_1_0_n_n_0_1_1256_wf : GatherDims.WF S8192x256 S1024x1 S1024x256 [1] [0] [] [0] [] 1 ![1, 256]
  dot_S128x8192_S8192x256_S128x256_1_0_0_1_n_n_wf : DotDims.WF S128x8192 S8192x256 S128x256 [1] [0] [0] [1] [] []
  dot_S128x512_S512x256_S128x256_1_0_0_1_n_n_wf : DotDims.WF S128x512 S512x256 S128x256 [1] [0] [0] [1] [] []
  dot_S128x256_S256x64_S128x64_1_0_0_1_n_n_wf : DotDims.WF S128x256 S256x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S8192x16384.size a
  hwx0_0 : ∀ i : grid0.Coords, EltTy.bits .f32 = 32 ∨ (Rect.block (s := S8192x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S8192x256.size a
  hwx0_4 : ∀ i : grid0.Coords, EltTy.bits .f32 = 32 ∨ (Rect.block (s := S8192x256) S128x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S1024x8192.size a
  hwx1_0 : ∀ i : grid1.Coords, EltTy.bits .f32 = 32 ∨ (Rect.block (s := S1024x8192) S128x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S1024x256.size a
  hwx1_2 : ∀ i : grid1.Coords, EltTy.bits .f32 = 32 ∨ (Rect.block (s := S1024x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S1024x64.size a
  hwx1_5 : ∀ i : grid1.Coords, EltTy.bits .f32 = 32 ∨ (Rect.block (s := S1024x64) S128x64.size (cc1_transform_5 i) (hinb1_5 i)).WholeWords (EltTy.packing .f32)

variable [Facts₀]

def gather_S200000x128_S16384x1_S16384x128_1_0_n_n_0_1_1128 : GatherDims S200000x128 S16384x1 S16384x128 where
  offsetDims := [1]
  collapsedSliceDims := [0]
  operandBatchingDims := []
  startIndicesBatchingDims := []
  startIndexMap := [0]
  indexVectorDim := 1
  sliceSizes := ![1, 128]
  wf := gather_S200000x128_S16384x1_S16384x128_1_0_n_n_0_1_1128_wf
def gather_S16384x128_S8192x1_S8192x128_1_0_n_n_0_1_1128 : GatherDims S16384x128 S8192x1 S8192x128 where
  offsetDims := [1]
  collapsedSliceDims := [0]
  operandBatchingDims := []
  startIndicesBatchingDims := []
  startIndexMap := [0]
  indexVectorDim := 1
  sliceSizes := ![1, 128]
  wf := gather_S16384x128_S8192x1_S8192x128_1_0_n_n_0_1_1128_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def gather_S8192x256_S1024x1_S1024x256_1_0_n_n_0_1_1256 : GatherDims S8192x256 S1024x1 S1024x256 where
  offsetDims := [1]
  collapsedSliceDims := [0]
  operandBatchingDims := []
  startIndicesBatchingDims := []
  startIndexMap := [0]
  indexVectorDim := 1
  sliceSizes := ![1, 256]
  wf := gather_S8192x256_S1024x1_S1024x256_1_0_n_n_0_1_1256_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf

abbrev win0_0 : Pipeline.Window sig grid0 :=
  Pipeline.Window.ofSpec (Memref.whole main_arg4) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg5) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S128x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x128 : Shape := ⟨2, ![200000, 128]⟩
abbrev S16384 : Shape := ⟨1, ![16384]⟩
abbrev S8192 : Shape := ⟨1, ![8192]⟩
abbrev S1024 : Shape := ⟨1, ![1024]⟩
abbrev S8192x16384 : Shape := ⟨2, ![8192, 16384]⟩
abbrev S1024x8192 : Shape := ⟨2, ![1024, 8192]⟩
abbrev S256x256 : Shape := ⟨2, ![256, 256]⟩
abbrev S512x256 : Shape := ⟨2, ![512, 256]⟩
abbrev S256x64 : Shape := ⟨2, ![256, 64]⟩
abbrev S_ : Shape := ⟨0, ![]⟩
abbrev S16384x1 : Shape := ⟨2, ![16384, 1]⟩
abbrev S16384x128 : Shape := ⟨2, ![16384, 128]⟩
abbrev S8192x128 : Shape := ⟨2, ![8192, 128]⟩
abbrev S8192x1 : Shape := ⟨2, ![8192, 1]⟩
abbrev S8192x256 : Shape := ⟨2, ![8192, 256]⟩
abbrev S1024x256 : Shape := ⟨2, ![1024, 256]⟩
abbrev S1024x1 : Shape := ⟨2, ![1024, 1]⟩
abbrev S1024x512 : Shape := ⟨2, ![1024, 512]⟩
abbrev S1024x64 : Shape := ⟨2, ![1024, 64]⟩

abbrev nBuf : Space → Nat
  | .hbm => 57
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S16384, .i32⟩
  | .hbm, ⟨2, _⟩ => ⟨S8192, .i32⟩
  | .hbm, ⟨3, _⟩ => ⟨S1024, .i32⟩
  | .hbm, ⟨4, _⟩ => ⟨S8192x16384, .f32⟩
  | .hbm, ⟨5, _⟩ => ⟨S1024x8192, .f32⟩
  | .hbm, ⟨6, _⟩ => ⟨S256x256, .f32⟩
  | .hbm, ⟨7, _⟩ => ⟨S512x256, .f32⟩
  | .hbm, ⟨8, _⟩ => ⟨S256x64, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x128, .f32⟩
  | .hbm, ⟨18, _⟩ => ⟨S8192x128, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x128, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S1024x256, .f32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S1024x256, .f32⟩
  | .hbm, ⟨43, _⟩ => ⟨S1024x512, .f32⟩
  | .hbm, ⟨44, _⟩ => ⟨S1024x256, .f32⟩
  | .hbm, ⟨45, _⟩ => ⟨S_, .f32⟩
  | .hbm, ⟨46, _⟩ => ⟨S1024x256, .f32⟩
  | .hbm, ⟨47, _⟩ => ⟨S1024x256, .f32⟩
  | .hbm, ⟨48, _⟩ => ⟨S1024x64, .f32⟩
  | .hbm, ⟨49, _⟩ => ⟨S1024x64, .f32⟩
  | .hbm, ⟨50, _⟩ => ⟨S1024x64, .f32⟩
  | .hbm, ⟨51, _⟩ => ⟨S_, .f32⟩
  | .hbm, ⟨52, _⟩ => ⟨S1024x64, .f32⟩
  | .hbm, ⟨53, _⟩ => ⟨S1024x64, .f32⟩
  | .hbm, ⟨54, _⟩ => ⟨S_, .f32⟩
  | .hbm, ⟨55, _⟩ => ⟨S1024x64, .f32⟩
  | .hbm, ⟨56, _⟩ => ⟨S1024x64, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x128_S8192x128_S8192x256_d1 : Shape.Concatenates [S8192x128, S8192x128] S8192x256 1
  bcast_S_S8192x256 : S_.BroadcastsInDim S8192x256 (![] : Fin 0 → Fin S8192x256.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x256_S1024x256_S1024x512_d1 : Shape.Concatenates [S1024x256, S1024x256] S1024x512 1
  bcast_S_S1024x256 : S_.BroadcastsInDim S1024x256 (![] : Fin 0 → Fin S1024x256.rank)
  bcast_S_S1024x64 : S_.BroadcastsInDim S1024x64 (![] : Fin 0 → Fin S1024x64.rank)
  gather_S200000x128_S16384x1_S16384x128_1_0_n_n_0_1_1128_wf : GatherDims.WF S200000x128 S16384x1 S16384x128 [1] [0] [] [0] [] 1 ![1, 128]
  dot_S8192x16384_S16384x128_S8192x128_1_0_0_1_n_n_wf : DotDims.WF S8192x16384 S16384x128 S8192x128 [1] [0] [0] [1] [] []
  gather_S16384x128_S8192x1_S8192x128_1_0_n_n_0_1_1128_wf : GatherDims.WF S16384x128 S8192x1 S8192x128 [1] [0] [] [0] [] 1 ![1, 128]
  dot_S8192x256_S256x256_S8192x256_1_0_0_1_n_n_wf : DotDims.WF S8192x256 S256x256 S8192x256 [1] [0] [0] [1] [] []
  dot_S1024x8192_S8192x256_S1024x256_1_0_0_1_n_n_wf : DotDims.WF S1024x8192 S8192x256 S1024x256 [1] [0] [0] [1] [] []
  gather_S8192x256_S1024x1_S1024x256_1_0_n_n_0_1_1256_wf : GatherDims.WF S8192x256 S1024x1 S1024x256 [1] [0] [] [0] [] 1 ![1, 256]
  dot_S1024x512_S512x256_S1024x256_1_0_0_1_n_n_wf : DotDims.WF S1024x512 S512x256 S1024x256 [1] [0] [0] [1] [] []
  dot_S1024x256_S256x64_S1024x64_1_0_0_1_n_n_wf : DotDims.WF S1024x256 S256x64 S1024x64 [1] [0] [0] [1] [] []

variable [Facts₀]

def gather_S200000x128_S16384x1_S16384x128_1_0_n_n_0_1_1128 : GatherDims S200000x128 S16384x1 S16384x128 where
  offsetDims := [1]
  collapsedSliceDims := [0]
  operandBatchingDims := []
  startIndicesBatchingDims := []
  startIndexMap := [0]
  indexVectorDim := 1
  sliceSizes := ![1, 128]
  wf := gather_S200000x128_S16384x1_S16384x128_1_0_n_n_0_1_1128_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf
def gather_S16384x128_S8192x1_S8192x128_1_0_n_n_0_1_1128 : GatherDims S16384x128 S8192x1 S8192x128 where
  offsetDims := [1]
  collapsedSliceDims := [0]
  operandBatchingDims := []
  startIndicesBatchingDims := []
  startIndexMap := [0]
  indexVectorDim := 1
  sliceSizes := ![1, 128]
  wf := gather_S16384x128_S8192x1_S8192x128_1_0_n_n_0_1_1128_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S1024x8192_S8192x256_S1024x256_1_0_0_1_n_n : DotDims S1024x8192 S8192x256 S1024x256 where
  lhsContracting := [1]
  rhsContracting := [0]
  lhsNonContracting := [0]
  rhsNonContracting := [1]
  lhsBatch := []
  rhsBatch := []
  wf := dot_S1024x8192_S8192x256_S1024x256_1_0_0_1_n_n_wf
def gather_S8192x256_S1024x1_S1024x256_1_0_n_n_0_1_1256 : GatherDims S8192x256 S1024x1 S1024x256 where
  offsetDims := [1]
  collapsedSliceDims := [0]
  operandBatchingDims := []
  startIndicesBatchingDims := []
  startIndexMap := [0]
  indexVectorDim := 1
  sliceSizes := ![1, 256]
  wf := gather_S8192x256_S1024x1_S1024x256_1_0_n_n_0_1_1256_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

class Facts : Prop extends Facts₀ where

variable [Facts]
-- ==== Proof.Spec.lean ====
/-
  A two-layer GraphSAGE forward pass as a composition of five host functions of arrays.

  `take0`, `take1`, `take2`: jnp's `table[idx]` — a negative index counts from the end of the table, then the
  rows are gathered. `layer1`: the first layer, relu([self | mask · f] · W) over all 8192 rows. `layer2`: the second
  layer followed by the classifier and the logistic function, over all 1024 rows. `net` composes them:

      f0 = table[idx0];  f1 = layer1 mask1 f0 f0[cur1] W1;  out = layer2 mask2 f1 f1[cur2] W2 W_out.

  Each is written with the host's own operations, so that a host program computing this network has `net` of its
  arguments as its result term.
-/
import proofs.«163042_j15985868276246_1_alg».proof.Proof.Gen.ReferenceIdeal

noncomputable section

namespace Cert.Sage

open Cert.ReferenceIdeal Cert.ReferenceIdeal.Gen Idealize.ShloMosaic

variable {F : FTy → Type} [FloatOps F]

/-- Rows of the 200000-row feature table picked by 16384 indices, a negative index counted from the end. -/
def take0 (A0 : (⟨S200000x128, .f32⟩ : BufTy).Contents (Elt F)) (I1 : (⟨S16384, .i32⟩ : BufTy).Contents (Elt F)) :
    (⟨S16384x128, .f32⟩ : BufTy).Contents (Elt F) :=
  Host.gather gather_S200000x128_S16384x1_S16384x128_1_0_n_n_0_1_1128 A0 (broadcastInDim S16384x1 ![0] bcast_S16384_S16384x1_0 (select (cmpi .slt I1 (broadcastInDim S16384 ![] bcast_S_S16384 (constantI S_ 32 0#32))) (addi I1 (broadcastInDim S16384 ![] bcast_S_S16384 (constantI S_ 32 200000#32))) I1))

/-- Rows of a 16384-row table picked by 8192 indices, a negative index counted from the end. -/
def take1 (f0 : (⟨S16384x128, .f32⟩ : BufTy).Contents (Elt F)) (I2 : (⟨S8192, .i32⟩ : BufTy).Contents (Elt F)) :
    (⟨S8192x128, .f32⟩ : BufTy).Contents (Elt F) :=
  Host.gather gather_S16384x128_S8192x1_S8192x128_1_0_n_n_0_1_1128 f0 (broadcastInDim S8192x1 ![0] bcast_S8192_S8192x1_0 (select (cmpi .slt I2 (broadcastInDim S8192 ![] bcast_S_S8192 (constantI S_ 32 0#32))) (addi I2 (broadcastInDim S8192 ![] bcast_S_S8192 (constantI S_ 32 16384#32))) I2))

/-- Rows of an 8192-row table picked by 1024 indices, a negative index counted from the end. -/
def take2 (f1 : (⟨S8192x256, .f32⟩ : BufTy).Contents (Elt F)) (I3 : (⟨S1024, .i32⟩ : BufTy).Contents (Elt F)) :
    (⟨S1024x256, .f32⟩ : BufTy).Contents (Elt F) :=
  Host.gather gather_S8192x256_S1024x1_S1024x256_1_0_n_n_0_1_1256 f1 (broadcastInDim S1024x1 ![0] bcast_S1024_S1024x1_0 (select (cmpi .slt I3 (broadcastInDim S1024 ![] bcast_S_S1024 (constantI S_ 32 0#32))) (addi I3 (broadcastInDim S1024 ![] bcast_S_S1024 (constantI S_ 32 8192#32))) I3))

/-- The first layer over all rows: relu([self | mask · f] · W). -/
def layer1 (M1 : (⟨S8192x16384, .f32⟩ : BufTy).Contents (Elt F)) (f0 : (⟨S16384x128, .f32⟩ : BufTy).Contents (Elt F))
    (s1 : (⟨S8192x128, .f32⟩ : BufTy).Contents (Elt F)) (Wa : (⟨S256x256, .f32⟩ : BufTy).Contents (Elt F)) :
    (⟨S8192x256, .f32⟩ : BufTy).Contents (Elt F) :=
  maximumf (Host.dotGeneral dot_S8192x256_S256x256_S8192x256_1_0_0_1_n_n none (concatenate S8192x256 1 [⟨S8192x128, s1⟩, ⟨S8192x128, (Host.dotGeneral dot_S8192x16384_S16384x128_S8192x128_1_0_0_1_n_n none M1 f0)⟩] concatenates_S8192x128_S8192x128_S8192x256_d1) Wa) (broadcastInDim S8192x256 ![] bcast_S_S8192x256 (constant S_ .f32 0x00000000#32))

/-- The second layer, the classifier and the logistic function over all rows:
    1 / (1 + exp(−(relu([self | mask · f] · W) · W_out))). -/
def layer2 (M2 : (⟨S1024x8192, .f32⟩ : BufTy).Contents (Elt F)) (f1 : (⟨S8192x256, .f32⟩ : BufTy).Contents (Elt F))
    (s2 : (⟨S1024x256, .f32⟩ : BufTy).Contents (Elt F)) (Wb : (⟨S512x256, .f32⟩ : BufTy).Contents (Elt F))
    (Wc : (⟨S256x64, .f32⟩ : BufTy).Contents (Elt F)) : (⟨S1024x64, .f32⟩ : BufTy).Contents (Elt F) :=
  Host.divf (broadcastInDim S1024x64 ![] bcast_S_S1024x64 (constant S_ .f32 0x3F800000#32)) (addf (broadcastInDim S1024x64 ![] bcast_S_S1024x64 (constant S_ .f32 0x3F800000#32)) (Host.exp (Host.negf (Host.dotGeneral dot_S1024x256_S256x64_S1024x64_1_0_0_1_n_n none (maximumf (Host.dotGeneral dot_S1024x512_S512x256_S1024x256_1_0_0_1_n_n none (concatenate S1024x512 1 [⟨S1024x256, s2⟩, ⟨S1024x256, (Host.dotGeneral dot_S1024x8192_S8192x256_S1024x256_1_0_0_1_n_n none M2 f1)⟩] concatenates_S1024x256_S1024x256_S1024x512_d1) Wb) (broadcastInDim S1024x256 ![] bcast_S_S1024x256 (constant S_ .f32 0x00000000#32))) Wc))))

/-- The network: gather, first layer, gather, second layer with classifier. -/
def net (A0 : (⟨S200000x128, .f32⟩ : BufTy).Contents (Elt F)) (I1 : (⟨S16384, .i32⟩ : BufTy).Contents (Elt F))
    (I2 : (⟨S8192, .i32⟩ : BufTy).Contents (Elt F)) (I3 : (⟨S1024, .i32⟩ : BufTy).Contents (Elt F))
    (M1 : (⟨S8192x16384, .f32⟩ : BufTy).Contents (Elt F)) (M2 : (⟨S1024x8192, .f32⟩ : BufTy).Contents (Elt F))
    (Wa : (⟨S256x256, .f32⟩ : BufTy).Contents (Elt F)) (Wb : (⟨S512x256, .f32⟩ : BufTy).Contents (Elt F))
    (Wc : (⟨S256x64, .f32⟩ : BufTy).Contents (Elt F)) : (⟨S1024x64, .f32⟩ : BufTy).Contents (Elt F) :=
  layer2 M2 (layer1 M1 (take0 A0 I1) (take1 (take0 A0 I1) I2) Wa)
    (take2 (layer1 M1 (take0 A0 I1) (take1 (take0 A0 I1) I2) Wa) I3) Wb Wc

end Cert.Sage

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.RowMath.lean ====
/-
  One GraphSAGE layer read row by row, over the extended reals.

  A row of the layer's output depends on ONE row of the aggregation mask, ONE row of the node's own ("self")
  features, and on the whole neighbour-feature table and the whole weight matrix:

      hidden(j) = max( Σ_k [ self | mask · f ](k) · W(k, j), 0 ),

  where the bracket is the self row followed by the aggregated row. A 128-row block's matrix products (a kernel's
  body) and a whole array's (a host program) are both described by this one row function, so the two agree row by
  row. This file states the row function, reads a two-piece concatenation along the columns and a host matrix
  product at an index, and the logistic function as the host spells it.
-/
import Idealize.ShloMosaic.PureOps.Ideal.Laws
import Idealize.ShloMosaic.Lib.ValueIdx
import Idealize.ShloMosaic.Lib.Pipeline.Value
import Idealize.ShloMosaic.Lib.KernelVsHost
import proofs.«163042_j15985868276246_1_alg».proof.Proof.LibPlainDot

noncomputable section

namespace Cert.RowMath

open Idealize.ShloMosaic Idealize.ShloMosaic.ValueIdx

variable {α : Type}

/-- Two matrices with the same rows laid side by side, read at (p, k): the left one while k is below its width,
    the right one at k less that width afterwards. -/
theorem concat_cols_apply {R A B C : Nat} (hC : C ≤ A + B)
    (x : (⟨2, ![R, A]⟩ : Shape).Idx → α) (y : (⟨2, ![R, B]⟩ : Shape).Idx → α)
    (h : Shape.Concatenates [(⟨2, ![R, A]⟩ : Shape), ⟨2, ![R, B]⟩] ⟨2, ![R, C]⟩ 1) (p : Fin R) (k : Fin C) :
    concatenate (⟨2, ![R, C]⟩ : Shape) 1 [⟨⟨2, ![R, A]⟩, x⟩, ⟨⟨2, ![R, B]⟩, y⟩] h (ix2 p k)
      = if hk : k.val < A then x (ix2 p ⟨k.val, hk⟩) else y (ix2 p ⟨k.val - A, by omega⟩) := by
  split
  · next hk =>
    refine concatenate_pair_apply_left 1 x y h (ix2 p k) rfl (ix2 p ⟨k.val, hk⟩) fun b => ?_
    match b with
    | ⟨0, _⟩ => rfl
    | ⟨1, _⟩ => rfl
  · next hk =>
    refine concatenate_pair_apply_right 1 x y h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-- A host matrix product of an [M, K] by a [K, N] operand read at (p, j): Σₖ lhs (p, k) · rhs (k, j). At the
    extended reals the host's product and a kernel's product into a zero accumulator are the same sum. -/
theorem dot_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  rw [← matmul_zero_eq_dotGeneral]
  exact Cert.Lib.matmul_plain_apply d hr hs hl0 hl1 hr0 hr1 prec lhs rhs p j

/-- One output row of a layer: the self row and the aggregated row (the mask row against every column of the
    neighbour table) side by side, against column j of the weights, clamped below at `z`. -/
def hidRow {K A B C H : Nat} (hC : C ≤ A + B) (mrow : Fin K → EReal) (f : (⟨2, ![K, B]⟩ : Shape).Idx → EReal)
    (srow : Fin A → EReal) (W : (⟨2, ![C, H]⟩ : Shape).Idx → EReal) (z : EReal) (j : Fin H) : EReal :=
  max (∑ k : Fin C, (if hk : k.val < A then srow ⟨k.val, hk⟩ else ∑ l : Fin K, mrow l * f (ix2 l ⟨k.val - A, by omega⟩))
        * W (ix2 k j)) z

/-- The logistic function as the host spells it — one over one plus the exponential of the negation — is the
    extended reals' logistic function when `one` is one. -/
theorem logistic_spelt (one x : EReal) (h1 : one = 1) :
    Ideal.div one (one + Ideal.exp (-x)) = Ideal.logistic x := by
  subst h1; rfl

end Cert.RowMath

end
-- ==== Proof.KBlocks.lean ====
/-
  What each kernel body stores, read one entry at a time over the extended reals.

  A body's block is 128 rows. Entry (p, q) of the first body's store is the row function `hidRow` of row p of its mask
  block and row p of its self block (against the whole neighbour table and the whole weight matrix it also loads);
  entry (p, j) of the second body's store is the logistic function of its hidden row against column j of the
  classifier's weights. A change of float format is the identity here, and a recast to the same shape reads the same
  entries.
-/
import proofs.«163042_j15985868276246_1_alg».proof.Proof.Gen.KernelIdeal.Skeleton
import proofs.«163042_j15985868276246_1_alg».proof.Proof.RowMath

noncomputable section

namespace Cert.KernelIdeal.Rows

open Cert.KernelIdeal Cert.KernelIdeal.Gen
open Idealize.ShloMosaic Idealize.ShloMosaic.ValueIdx Cert.RowMath

/-! ## The five matrix products' index maps: the output row picks the left operand's row, the output column the
right operand's column, and the one contracted index runs along the left's columns and the right's rows -/

theorem mask1_l0 (i : S128x128.Idx) (q : dot_S128x16384_S16384x128_S128x128_1_0_0_1_n_n.contr.Idx) :
    (dot_S128x16384_S16384x128_S128x128_1_0_0_1_n_n.lhsIdx i q 0).val = (i 0).val := by
  unfold DotDims.lhsIdx
  rw [dif_neg (show ¬(0 : Fin S128x16384.rank) ∈ dot_S128x16384_S16384x128_S128x128_1_0_0_1_n_n.lhsBatch by decide), dif_pos (show (0 : Fin S128x16384.rank) ∈ dot_S128x16384_S16384x128_S128x128_1_0_0_1_n_n.lhsNonContracting by decide)]
  rfl
theorem mask1_l1 (i : S128x128.Idx) (q : dot_S128x16384_S16384x128_S128x128_1_0_0_1_n_n.contr.Idx) :
    (dot_S128x16384_S16384x128_S128x128_1_0_0_1_n_n.lhsIdx i q 1).val = (q ⟨0, by decide⟩).val :=
  dot_S128x16384_S16384x128_S128x128_1_0_0_1_n_n.lhsIdx_val_of_single rfl i q
theorem mask1_r0 (i : S128x128.Idx) (q : dot_S128x16384_S16384x128_S128x128_1_0_0_1_n_n.contr.Idx) :
    (dot_S128x16384_S16384x128_S128x128_1_0_0_1_n_n.rhsIdx i q 0).val = (q ⟨0, by decide⟩).val :=
  dot_S128x16384_S16384x128_S128x128_1_0_0_1_n_n.rhsIdx_val_of_single rfl i q
theorem mask1_r1 (i : S128x128.Idx) (q : dot_S128x16384_S16384x128_S128x128_1_0_0_1_n_n.contr.Idx) :
    (dot_S128x16384_S16384x128_S128x128_1_0_0_1_n_n.rhsIdx i q 1).val = (i 1).val := by
  unfold DotDims.rhsIdx
  rw [dif_neg (show ¬(1 : Fin S16384x128.rank) ∈ dot_S128x16384_S16384x128_S128x128_1_0_0_1_n_n.rhsBatch by decide), dif_pos (show (1 : Fin S16384x128.rank) ∈ dot_S128x16384_S16384x128_S128x128_1_0_0_1_n_n.rhsNonContracting by decide)]
  rfl

theorem lin1_l0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem lin1_l1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
theorem lin1_r0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
theorem lin1_r1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

theorem mask2_l0 (i : S128x256.Idx) (q : dot_S128x8192_S8192x256_S128x256_1_0_0_1_n_n.contr.Idx) :
    (dot_S128x8192_S8192x256_S128x256_1_0_0_1_n_n.lhsIdx i q 0).val = (i 0).val := by
  unfold DotDims.lhsIdx
  rw [dif_neg (show ¬(0 : Fin S128x8192.rank) ∈ dot_S128x8192_S8192x256_S128x256_1_0_0_1_n_n.lhsBatch by decide), dif_pos (show (0 : Fin S128x8192.rank) ∈ dot_S128x8192_S8192x256_S128x256_1_0_0_1_n_n.lhsNonContracting by decide)]
  rfl
theorem mask2_l1 (i : S128x256.Idx) (q : dot_S128x8192_S8192x256_S128x256_1_0_0_1_n_n.contr.Idx) :
    (dot_S128x8192_S8192x256_S128x256_1_0_0_1_n_n.lhsIdx i q 1).val = (q ⟨0, by decide⟩).val :=
  dot_S128x8192_S8192x256_S128x256_1_0_0_1_n_n.lhsIdx_val_of_single rfl i q
theorem mask2_r0 (i : S128x256.Idx) (q : dot_S128x8192_S8192x256_S128x256_1_0_0_1_n_n.contr.Idx) :
    (dot_S128x8192_S8192x256_S128x256_1_0_0_1_n_n.rhsIdx i q 0).val = (q ⟨0, by decide⟩).val :=
  dot_S128x8192_S8192x256_S128x256_1_0_0_1_n_n.rhsIdx_val_of_single rfl i q
theorem mask2_r1 (i : S128x256.Idx) (q : dot_S128x8192_S8192x256_S128x256_1_0_0_1_n_n.contr.Idx) :
    (dot_S128x8192_S8192x256_S128x256_1_0_0_1_n_n.rhsIdx i q 1).val = (i 1).val := by
  unfold DotDims.rhsIdx
  rw [dif_neg (show ¬(1 : Fin S8192x256.rank) ∈ dot_S128x8192_S8192x256_S128x256_1_0_0_1_n_n.rhsBatch by decide), dif_pos (show (1 : Fin S8192x256.rank) ∈ dot_S128x8192_S8192x256_S128x256_1_0_0_1_n_n.rhsNonContracting by decide)]
  rfl

theorem lin2_l0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
theorem lin2_l1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q
theorem lin2_r0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q
theorem lin2_r1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

theorem cls_l0 (i : S128x64.Idx) (q : dot_S128x256_S256x64_S128x64_1_0_0_1_n_n.contr.Idx) :
    (dot_S128x256_S256x64_S128x64_1_0_0_1_n_n.lhsIdx i q 0).val = (i 0).val := by
  unfold DotDims.lhsIdx
  rw [dif_neg (show ¬(0 : Fin S128x256.rank) ∈ dot_S128x256_S256x64_S128x64_1_0_0_1_n_n.lhsBatch by decide), dif_pos (show (0 : Fin S128x256.rank) ∈ dot_S128x256_S256x64_S128x64_1_0_0_1_n_n.lhsNonContracting by decide)]
  rfl
theorem cls_l1 (i : S128x64.Idx) (q : dot_S128x256_S256x64_S128x64_1_0_0_1_n_n.contr.Idx) :
    (dot_S128x256_S256x64_S128x64_1_0_0_1_n_n.lhsIdx i q 1).val = (q ⟨0, by decide⟩).val :=
  dot_S128x256_S256x64_S128x64_1_0_0_1_n_n.lhsIdx_val_of_single rfl i q
theorem cls_r0 (i : S128x64.Idx) (q : dot_S128x256_S256x64_S128x64_1_0_0_1_n_n.contr.Idx) :
    (dot_S128x256_S256x64_S128x64_1_0_0_1_n_n.rhsIdx i q 0).val = (q ⟨0, by decide⟩).val :=
  dot_S128x256_S256x64_S128x64_1_0_0_1_n_n.rhsIdx_val_of_single rfl i q
theorem cls_r1 (i : S128x64.Idx) (q : dot_S128x256_S256x64_S128x64_1_0_0_1_n_n.contr.Idx) :
    (dot_S128x256_S256x64_S128x64_1_0_0_1_n_n.rhsIdx i q 1).val = (i 1).val := by
  unfold DotDims.rhsIdx
  rw [dif_neg (show ¬(1 : Fin S256x64.rank) ∈ dot_S128x256_S256x64_S128x64_1_0_0_1_n_n.rhsBatch by decide), dif_pos (show (1 : Fin S256x64.rank) ∈ dot_S128x256_S256x64_S128x64_1_0_0_1_n_n.rhsNonContracting by decide)]
  rfl

/-! ## The stored values -/

/-- Entry (p, q) of what the first body stores, from the four blocks it loads. -/
theorem pay0_apply (x0 : Vec Ideal S128x16384 .f32) (x1 : Vec Ideal S16384x128 .f32) (x2 : Vec Ideal S128x128 .f32)
    (x3 : Vec Ideal S256x256 .f32) (p : Fin 128) (q : Fin 256) :
    k0_pay1 (F := Ideal) x0 x1 x2 x3 (ix2 p q)
      = hidRow (A := 128) (B := 128) (by decide) (fun l => x0 (ix2 p l)) x1 (fun k => x2 (ix2 p k)) x3
          (Ideal.ofBits .f32 0x00000000#32) q := by
  unfold k0_pay1 hidRow
  dsimp only
  rw [maximumf_apply]
  refine congrArg₂ max ?_ rfl
  refine (Cert.Lib.matmul_plain_apply dot_S128x256_S256x256_S128x256_1_0_0_1_n_n rfl rfl lin1_l0 lin1_l1 lin1_r0 lin1_r1 none _ _ p q).trans ?_
  refine Finset.sum_congr rfl fun k _ => ?_
  rw [truncf_apply, truncf_apply, concat_cols_apply (A := 128) (B := 128) (by decide)]
  refine congrArg (fun x => x * x3 (ix2 k q)) ?_
  by_cases hk : k.val < 128
  · rw [dif_pos hk, dif_pos hk, shapeCast_self]
  · rw [dif_neg hk, dif_neg hk]
    refine (Cert.Lib.matmul_plain_apply dot_S128x16384_S16384x128_S128x128_1_0_0_1_n_n rfl rfl mask1_l0 mask1_l1 mask1_r0 mask1_r1 none _ _ p _).trans ?_
    refine Finset.sum_congr rfl fun l _ => ?_
    rw [truncf_apply, truncf_apply, shapeCast_self]

/-- Entry (p, j) of what the second body stores, from the five blocks it loads. -/
theorem pay1_apply (x0 : Vec Ideal S128x8192 .f32) (x1 : Vec Ideal S8192x256 .f32) (x2 : Vec Ideal S128x256 .f32)
    (x3 : Vec Ideal S512x256 .f32) (x4 : Vec Ideal S256x64 .f32) (p : Fin 128) (j : Fin 64) :
    k1_pay1 (F := Ideal) x0 x1 x2 x3 x4 (ix2 p j)
      = Ideal.logistic (∑ k : Fin 256,
          hidRow (A := 256) (B := 256) (by decide) (fun l => x0 (ix2 p l)) x1 (fun k => x2 (ix2 p k)) x3
            (Ideal.ofBits .f32 0x00000000#32) k * x4 (ix2 k j)) := by
  unfold k1_pay1 hidRow
  dsimp only
  refine congrArg Ideal.logistic ?_
  refine (Cert.Lib.matmul_plain_apply dot_S128x256_S256x64_S128x64_1_0_0_1_n_n rfl rfl cls_l0 cls_l1 cls_r0 cls_r1 none _ _ p j).trans ?_
  refine Finset.sum_congr rfl fun k _ => ?_
  rw [truncf_apply, truncf_apply]
  refine congrArg (fun x => x * x4 (ix2 k j)) ?_
  rw [maximumf_apply]
  refine congrArg₂ max ?_ rfl
  refine (Cert.Lib.matmul_plain_apply dot_S128x512_S512x256_S128x256_1_0_0_1_n_n rfl rfl lin2_l0 lin2_l1 lin2_r0 lin2_r1 none _ _ p k).trans ?_
  refine Finset.sum_congr rfl fun k' _ => ?_
  rw [truncf_apply, truncf_apply, concat_cols_apply (A := 256) (B := 256) (by decide)]
  refine congrArg (fun x => x * x3 (ix2 k' k)) ?_
  by_cases hk : k'.val < 256
  · rw [dif_pos hk, dif_pos hk, shapeCast_self]
  · rw [dif_neg hk, dif_neg hk]
    refine (Cert.Lib.matmul_plain_apply dot_S128x8192_S8192x256_S128x256_1_0_0_1_n_n rfl rfl mask2_l0 mask2_l1 mask2_r0 mask2_r1 none _ _ p _).trans ?_
    refine Finset.sum_congr rfl fun l _ => ?_
    rw [truncf_apply, truncf_apply, shapeCast_self]

end Cert.KernelIdeal.Rows

end
-- ==== Proof.RefRows.lean ====
/-
  The two layers of the network, read one output entry at a time.

  Entry (P, q) of the first layer is the row function `hidRow` of row P of the mask and row P of the self features;
  entry (P, j) of the second layer is the logistic function of the hidden row (again `hidRow`, of row P of the second
  mask and of the second self features) against column j of the classifier's weights.
-/
import proofs.«163042_j15985868276246_1_alg».proof.Proof.Spec
import proofs.«163042_j15985868276246_1_alg».proof.Proof.RowMath
import proofs.«163042_j15985868276246_1_alg».proof.Proof.Gen.ReferenceIdeal.Read
import Idealize.ShloMosaic.Lib.IdealHost

noncomputable section

namespace Cert.Sage

open Cert.ReferenceIdeal Cert.ReferenceIdeal.Gen Cert.ReferenceIdeal.Read
open Idealize.ShloMosaic Idealize.ShloMosaic.ValueIdx Cert.RowMath

/-- Entry (P, q) of the first layer. -/
theorem layer1_apply (M1 : (⟨S8192x16384, .f32⟩ : BufTy).Contents (Elt Ideal)) (f0 : (⟨S16384x128, .f32⟩ : BufTy).Contents (Elt Ideal))
    (s1 : (⟨S8192x128, .f32⟩ : BufTy).Contents (Elt Ideal)) (Wa : (⟨S256x256, .f32⟩ : BufTy).Contents (Elt Ideal))
    (P : Fin 8192) (q : Fin 256) :
    layer1 (F := Ideal) M1 f0 s1 Wa (ix2 P q)
      = hidRow (A := 128) (B := 128) (by decide) (fun l => M1 (ix2 P l)) f0 (fun k => s1 (ix2 P k)) Wa
          (Ideal.ofBits .f32 0x00000000#32) q := by
  unfold layer1 hidRow
  rw [maximumf_apply]
  refine congrArg₂ max ?_ (broadcastInDim_apply _ bcast_S_S8192x256 _ _ ix0 (fun a => a.elim0))
  rw [dot_plain_apply dot_S8192x256_S256x256_S8192x256_1_0_0_1_n_n rfl rfl lhs_main_v16_0 lhs_main_v16_1 rhs_main_v16_0 rhs_main_v16_1]
  refine Finset.sum_congr rfl fun k _ => ?_
  rw [concat_cols_apply (A := 128) (B := 128) (by decide)]
  refine congrArg (fun x => x * Wa (ix2 k q)) ?_
  by_cases hk : k.val < 128
  · rw [dif_pos hk, dif_pos hk]
  · rw [dif_neg hk, dif_neg hk]
    exact dot_plain_apply dot_S8192x16384_S16384x128_S8192x128_1_0_0_1_n_n rfl rfl lhs_main_v7_0 lhs_main_v7_1 rhs_main_v7_0 rhs_main_v7_1 none M1 f0 P _

/-- Entry (P, j) of the second layer with its classifier. -/
theorem layer2_apply (M2 : (⟨S1024x8192, .f32⟩ : BufTy).Contents (Elt Ideal)) (f1 : (⟨S8192x256, .f32⟩ : BufTy).Contents (Elt Ideal))
    (s2 : (⟨S1024x256, .f32⟩ : BufTy).Contents (Elt Ideal)) (Wb : (⟨S512x256, .f32⟩ : BufTy).Contents (Elt Ideal))
    (Wc : (⟨S256x64, .f32⟩ : BufTy).Contents (Elt Ideal)) (P : Fin 1024) (j : Fin 64) :
    layer2 (F := Ideal) M2 f1 s2 Wb Wc (ix2 P j)
      = Ideal.logistic (∑ k : Fin 256,
          hidRow (A := 256) (B := 256) (by decide) (fun l => M2 (ix2 P l)) f1 (fun k => s2 (ix2 P k)) Wb
            (Ideal.ofBits .f32 0x00000000#32) k * Wc (ix2 k j)) := by
  unfold layer2
  have hb : ∀ i : S1024x64.Idx, broadcastInDim S1024x64 ![] bcast_S_S1024x64 (constant (F := Ideal) S_ .f32 0x3F800000#32) i = 1 := fun i =>
    (broadcastInDim_apply _ bcast_S_S1024x64 _ i ix0 (fun a => a.elim0)).trans Ideal.ofBits_one_f32
  show Ideal.div (broadcastInDim S1024x64 ![] bcast_S_S1024x64 (constant (F := Ideal) S_ .f32 0x3F800000#32) (ix2 P j))
      (broadcastInDim S1024x64 ![] bcast_S_S1024x64 (constant (F := Ideal) S_ .f32 0x3F800000#32) (ix2 P j)
        + Ideal.exp (-(Host.dotGeneral (F := Ideal) dot_S1024x256_S256x64_S1024x64_1_0_0_1_n_n none _ Wc (ix2 P j)))) = _
  rw [hb, logistic_spelt 1 _ rfl, dot_plain_apply dot_S1024x256_S256x64_S1024x64_1_0_0_1_n_n rfl rfl lhs_main_v29_0 lhs_main_v29_1 rhs_main_v29_0 rhs_main_v29_1]
  refine congrArg Ideal.logistic (Finset.sum_congr rfl fun k _ => ?_)
  refine congrArg (fun x => x * Wc (ix2 k j)) ?_
  unfold hidRow
  rw [maximumf_apply]
  refine congrArg₂ max ?_ (broadcastInDim_apply _ bcast_S_S1024x256 _ _ ix0 (fun a => a.elim0))
  rw [dot_plain_apply dot_S1024x512_S512x256_S1024x256_1_0_0_1_n_n rfl rfl lhs_main_v27_0 lhs_main_v27_1 rhs_main_v27_0 rhs_main_v27_1]
  refine Finset.sum_congr rfl fun k' _ => ?_
  rw [concat_cols_apply (A := 256) (B := 256) (by decide)]
  refine congrArg (fun x => x * Wb (ix2 k' k)) ?_
  by_cases hk : k'.val < 256
  · rw [dif_pos hk, dif_pos hk]
  · rw [dif_neg hk, dif_neg hk]
    exact dot_plain_apply dot_S1024x8192_S8192x256_S1024x256_1_0_0_1_n_n rfl rfl lhs_main_v18_0 lhs_main_v18_1 rhs_main_v18_0 rhs_main_v18_1 none M2 f1 P _

end Cert.Sage

end
-- ==== Proof.KRegion0.lean ====
/-
  The first pallas_call's result array, as one function of the arrays the call finds.

  The call walks 64 grid points; point t loads rows 128·t … 128·t + 127 of the mask and of the self features, the
  whole neighbour table and the whole weight matrix, and writes back rows 128·t … 128·t + 127 of the result. Each
  written entry is the row function of its own mask row and self row, which is what the whole-array `layer1` has
  there; the 64 blocks cover the 8192 rows, so the result array ends holding `layer1` of the four arrays.
-/
import proofs.«163042_j15985868276246_1_alg».proof.Proof.Gen.KernelIdeal.Frame
import proofs.«163042_j15985868276246_1_alg».proof.Proof.KBlocks
import proofs.«163042_j15985868276246_1_alg».proof.Proof.RefRows
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the mask, the self features and the result move down one block of
    rows per point; the neighbour table and the weights stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem row_lt (t : Fin cfg0.N) (p : Fin 128) : 128 * t.val + p.val < 8192 := by
  have := t.isLt; have hN : cfg0.N = 64 := N_0; omega

/-- Entry (p, l) of the mask block at point t is entry (128·t + p, l) of the mask. -/
theorem mask_blk (c : Dev nD) (t : Fin cfg0.N) (p : Fin 128) (l : Fin 16384) :
    (iblk0 V c 0 t : Vec Ideal S128x16384 .f32) (ix2 p l)
      = (V c main_arg4 : S8192x16384.Idx → EReal) (ix2 ⟨128 * t.val + p.val, row_lt t p⟩ l) := by
  unfold iblk0
  rw [View.read_apply]
  show V c main_arg4 _ = V c main_arg4 _
  refine congrArg (V c main_arg4) (funext fun a => Fin.ext ?_)
  obtain ⟨e0, e1, -⟩ := idx_facts t
  match a with
  | ⟨0, _⟩ => show win0_0.index t (0 : Fin 2) * 128 + 1 * p.val = 128 * t.val + p.val; rw [e0]; omega
  | ⟨1, _⟩ => show win0_0.index t (1 : Fin 2) * 16384 + 1 * l.val = l.val; rw [e1]; omega

/-- Entry (p, k) of the self block at point t is entry (128·t + p, k) of the self features. -/
theorem self_blk (c : Dev nD) (t : Fin cfg0.N) (p : Fin 128) (k : Fin 128) :
    (iblk0 V c 2 t : Vec Ideal S128x128 .f32) (ix2 p k)
      = (V c main_v13 : S8192x128.Idx → EReal) (ix2 ⟨128 * t.val + p.val, row_lt t p⟩ k) := by
  unfold iblk0
  rw [View.read_apply]
  show V c main_v13 _ = V c main_v13 _
  refine congrArg (V c main_v13) (funext fun a => Fin.ext ?_)
  obtain ⟨-, -, -, -, e0, e1, -⟩ := idx_facts t
  match a with
  | ⟨0, _⟩ => show win0_2.index t (0 : Fin 2) * 128 + 1 * p.val = 128 * t.val + p.val; rw [e0]; omega
  | ⟨1, _⟩ => show win0_2.index t (1 : Fin 2) * 128 + 1 * k.val = k.val; rw [e1]; omega

/-- The neighbour table's one block is the table. -/
theorem table_blk (c : Dev nD) (t : Fin cfg0.N) :
    (iblk0 V c 1 t : Vec Ideal S16384x128 .f32) = (V c main_v6 : S16384x128.Idx → EReal) := by
  funext y
  unfold iblk0
  rw [View.read_apply]
  show V c main_v6 _ = V c main_v6 y
  refine congrArg (V c main_v6) (funext fun a => Fin.ext ?_)
  obtain ⟨-, -, e0, e1, -⟩ := idx_facts t
  match a with
  | ⟨0, _⟩ => show win0_1.index t (0 : Fin 2) * 16384 + 1 * (y 0).val = (y 0).val; rw [e0]; omega
  | ⟨1, _⟩ => show win0_1.index t (1 : Fin 2) * 128 + 1 * (y 1).val = (y 1).val; rw [e1]; omega

/-- The weight matrix's one block is the matrix. -/
theorem weight_blk (c : Dev nD) (t : Fin cfg0.N) :
    (iblk0 V c 3 t : Vec Ideal S256x256 .f32) = (V c main_arg6 : S256x256.Idx → EReal) := by
  funext y
  unfold iblk0
  rw [View.read_apply]
  show V c main_arg6 _ = V c main_arg6 y
  refine congrArg (V c main_arg6) (funext fun a => Fin.ext ?_)
  obtain ⟨-, -, -, -, -, -, e0, e1, -⟩ := idx_facts t
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The result, as one function of the arrays the call finds. -/
abbrev result (c : Dev nD) : S8192x256.Idx → EReal :=
  Cert.Sage.layer1 (F := Ideal) (V c main_arg4) (V c main_v6) (V c main_v13) (V c main_arg6)

/-- Where entry (p, q) of the result's block at point t lies in the result array. -/
theorem out_emb (t : Fin cfg0.N) (p : Fin 128) (q : Fin 256) :
    ((cfg0.win 4).blk t).view.emb (ix2 p q) = (ix2 ⟨128 * t.val + p.val, row_lt t p⟩ q : S8192x256.Idx) := by
  funext a
  apply Fin.ext
  obtain ⟨-, -, -, -, -, -, -, -, e0, e1⟩ := idx_facts t
  match a with
  | ⟨0, _⟩ => show win0_4.index t (0 : Fin 2) * 128 + 1 * p.val = 128 * t.val + p.val; rw [e0]; omega
  | ⟨1, _⟩ => show win0_4.index t (1 : Fin 2) * 256 + 1 * q.val = q.val; rw [e1]; omega

/-- What point t writes back is block t of the result. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S128x16384) hz, View.ld_unit_zero (S := S16384x128) hz,
    View.ld_unit_zero (S := S128x128) hz, View.ld_unit_zero (S := S256x256) hz]
  funext y
  obtain ⟨p, q, rfl⟩ : ∃ (p : Fin 128) (q : Fin 256), y = ix2 p q := ⟨y 0, y 1, eq_ix2 y⟩
  rw [View.read_apply, out_emb t p q]
  refine (Cert.KernelIdeal.Rows.pay0_apply (iblk0 V c 0 t) (iblk0 V c 1 t) (iblk0 V c 2 t) (iblk0 V c 3 t) p q).trans ?_
  refine Eq.trans ?_ (Cert.Sage.layer1_apply (V c main_arg4) (V c main_v6) (V c main_v13) (V c main_arg6) ⟨128 * t.val + p.val, row_lt t p⟩ q).symm
  rw [table_blk V c t, weight_blk V c t,
    show (fun l => (iblk0 V c 0 t : Vec Ideal S128x16384 .f32) (ix2 p l)) = fun l => (V c main_arg4 : S8192x16384.Idx → EReal) (ix2 ⟨128 * t.val + p.val, row_lt t p⟩ l) from funext fun l => mask_blk V c t p l,
    show (fun k => (iblk0 V c 2 t : Vec Ideal S128x128 .f32) (ix2 p k)) = fun k => (V c main_v13 : S8192x128.Idx → EReal) (ix2 ⟨128 * t.val + p.val, row_lt t p⟩ k) from funext fun k => self_blk V c t p k]

/-- An index of the result array is in point t's block iff its row is one of the block's rows. -/
theorem mem_blk (t : Fin cfg0.N) (i : S8192x256.Idx) :
    i ∈ ((cfg0.win 4).blk t).view.set ↔ ∀ a : Fin 2, win0_4.index t a * S128x256.size a ≤ (i a).val ∧ (i a).val < win0_4.index t a * S128x256.size a + S128x256.size a := by
  show i ∈ ((View.whole main_v14).slice (win0_4.rect t)).set ↔ _
  rw [View.set_slice_whole, Rect.mem_set_unit]
  exact Iff.rfl

/-- Every index of the result array lies in some point's block: row r in block r / 128. -/
theorem cover (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 64 := N_0
  refine ⟨⟨(i 0).val / 128, by omega⟩, flush0_4 _, ?_⟩
  rw [mem_blk]
  obtain ⟨-, -, -, -, -, -, -, -, e0, e1⟩ := idx_facts ⟨(i 0).val / 128, by omega⟩
  intro a
  match a with
  | ⟨0, _⟩ =>
    show win0_4.index ⟨(i 0).val / 128, _⟩ (0 : Fin 2) * 128 ≤ (i 0).val ∧ (i 0).val < win0_4.index ⟨(i 0).val / 128, _⟩ (0 : Fin 2) * 128 + 128
    rw [e0]; show (i 0).val / 128 * 128 ≤ (i 0).val ∧ (i 0).val < (i 0).val / 128 * 128 + 128; omega
  | ⟨1, _⟩ =>
    show win0_4.index ⟨(i 0).val / 128, _⟩ (1 : Fin 2) * 256 ≤ (i 1).val ∧ (i 1).val < win0_4.index ⟨(i 0).val / 128, _⟩ (1 : Fin 2) * 256 + 256
    rw [e1]; omega

/-- The result array after the call is the first layer of the arrays the call found. -/
theorem final (c : Dev nD) : (dat0 V c).arrAt 4 cfg0.N = result V c :=
  (dat0 V c).arrAt_eq_of_cover 4 (result V c) (fun t _ => flushed_eq V c t) (fun i => cover i)

end Cert.KernelIdeal.Region0

end
-- ==== Proof.KRegion1.lean ====
/-
  The second pallas_call's result array, as one function of the arrays the call finds.

  The call walks 8 grid points; point t loads rows 128·t … 128·t + 127 of the second mask and of the second self
  features, the whole first-layer output and the two whole weight matrices, and writes back rows 128·t … 128·t + 127
  of the result. Each written entry is the logistic function of its own row's hidden values against the classifier's
  column, which is what the whole-array `layer2` has there; the 8 blocks cover the 1024 rows.
-/
import proofs.«163042_j15985868276246_1_alg».proof.Proof.Gen.KernelIdeal.Frame
import proofs.«163042_j15985868276246_1_alg».proof.Proof.KBlocks
import proofs.«163042_j15985868276246_1_alg».proof.Proof.RefRows
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the mask, the self features and the result move down one block of
    rows per point; the first-layer output and the two weight matrices stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt (t : Fin cfg1.N) (p : Fin 128) : 128 * t.val + p.val < 1024 := by
  have := t.isLt; have hN : cfg1.N = 8 := N_1; omega

/-- Entry (p, l) of the mask block at point t is entry (128·t + p, l) of the mask. -/
theorem mask_blk (c : Dev nD) (t : Fin cfg1.N) (p : Fin 128) (l : Fin 8192) :
    (iblk1 V c 0 t : Vec Ideal S128x8192 .f32) (ix2 p l)
      = (V c main_arg5 : S1024x8192.Idx → EReal) (ix2 ⟨128 * t.val + p.val, row_lt t p⟩ l) := by
  unfold iblk1
  rw [View.read_apply]
  show V c main_arg5 _ = V c main_arg5 _
  refine congrArg (V c main_arg5) (funext fun a => Fin.ext ?_)
  obtain ⟨e0, e1, -⟩ := idx_facts t
  match a with
  | ⟨0, _⟩ => show win1_0.index t (0 : Fin 2) * 128 + 1 * p.val = 128 * t.val + p.val; rw [e0]; omega
  | ⟨1, _⟩ => show win1_0.index t (1 : Fin 2) * 8192 + 1 * l.val = l.val; rw [e1]; omega

/-- Entry (p, k) of the self block at point t is entry (128·t + p, k) of the self features. -/
theorem self_blk (c : Dev nD) (t : Fin cfg1.N) (p : Fin 128) (k : Fin 256) :
    (iblk1 V c 2 t : Vec Ideal S128x256 .f32) (ix2 p k)
      = (V c main_v21 : S1024x256.Idx → EReal) (ix2 ⟨128 * t.val + p.val, row_lt t p⟩ k) := by
  unfold iblk1
  rw [View.read_apply]
  show V c main_v21 _ = V c main_v21 _
  refine congrArg (V c main_v21) (funext fun a => Fin.ext ?_)
  obtain ⟨-, -, -, -, e0, e1, -⟩ := idx_facts t
  match a with
  | ⟨0, _⟩ => show win1_2.index t (0 : Fin 2) * 128 + 1 * p.val = 128 * t.val + p.val; rw [e0]; omega
  | ⟨1, _⟩ => show win1_2.index t (1 : Fin 2) * 256 + 1 * k.val = k.val; rw [e1]; omega

/-- The first-layer output's one block is that array. -/
theorem table_blk (c : Dev nD) (t : Fin cfg1.N) :
    (iblk1 V c 1 t : Vec Ideal S8192x256 .f32) = (V c main_v14 : S8192x256.Idx → EReal) := by
  funext y
  unfold iblk1
  rw [View.read_apply]
  show V c main_v14 _ = V c main_v14 y
  refine congrArg (V c main_v14) (funext fun a => Fin.ext ?_)
  obtain ⟨-, -, e0, e1, -⟩ := idx_facts t
  match a with
  | ⟨0, _⟩ => show win1_1.index t (0 : Fin 2) * 8192 + 1 * (y 0).val = (y 0).val; rw [e0]; omega
  | ⟨1, _⟩ => show win1_1.index t (1 : Fin 2) * 256 + 1 * (y 1).val = (y 1).val; rw [e1]; omega

/-- The layer's weight matrix's one block is the matrix. -/
theorem weight_blk (c : Dev nD) (t : Fin cfg1.N) :
    (iblk1 V c 3 t : Vec Ideal S512x256 .f32) = (V c main_arg7 : S512x256.Idx → EReal) := by
  funext y
  unfold iblk1
  rw [View.read_apply]
  show V c main_arg7 _ = V c main_arg7 y
  refine congrArg (V c main_arg7) (funext fun a => Fin.ext ?_)
  obtain ⟨-, -, -, -, -, -, e0, e1, -⟩ := idx_facts t
  match a with
  | ⟨0, _⟩ => show win1_3.index t (0 : Fin 2) * 512 + 1 * (y 0).val = (y 0).val; rw [e0]; omega
  | ⟨1, _⟩ => show win1_3.index t (1 : Fin 2) * 256 + 1 * (y 1).val = (y 1).val; rw [e1]; omega

/-- The classifier's weight matrix's one block is the matrix. -/
theorem cls_blk (c : Dev nD) (t : Fin cfg1.N) :
    (iblk1 V c 4 t : Vec Ideal S256x64 .f32) = (V c main_arg8 : S256x64.Idx → EReal) := by
  funext y
  unfold iblk1
  rw [View.read_apply]
  show V c main_arg8 _ = V c main_arg8 y
  refine congrArg (V c main_arg8) (funext fun a => Fin.ext ?_)
  obtain ⟨-, -, -, -, -, -, -, -, e0, e1, -⟩ := idx_facts t
  match a with
  | ⟨0, _⟩ => show win1_4.index t (0 : Fin 2) * 256 + 1 * (y 0).val = (y 0).val; rw [e0]; omega
  | ⟨1, _⟩ => show win1_4.index t (1 : Fin 2) * 64 + 1 * (y 1).val = (y 1).val; rw [e1]; omega

/-- The result, as one function of the arrays the call finds. -/
abbrev result (c : Dev nD) : S1024x64.Idx → EReal :=
  Cert.Sage.layer2 (F := Ideal) (V c main_arg5) (V c main_v14) (V c main_v21) (V c main_arg7) (V c main_arg8)

/-- Where entry (p, j) of the result's block at point t lies in the result array. -/
theorem out_emb (t : Fin cfg1.N) (p : Fin 128) (j : Fin 64) :
    ((cfg1.win 5).blk t).view.emb (ix2 p j) = (ix2 ⟨128 * t.val + p.val, row_lt t p⟩ j : S1024x64.Idx) := by
  funext a
  apply Fin.ext
  obtain ⟨-, -, -, -, -, -, -, -, -, -, e0, e1⟩ := idx_facts t
  match a with
  | ⟨0, _⟩ => show win1_5.index t (0 : Fin 2) * 128 + 1 * p.val = 128 * t.val + p.val; rw [e0]; omega
  | ⟨1, _⟩ => show win1_5.index t (1 : Fin 2) * 64 + 1 * j.val = j.val; rw [e1]; omega

/-- What point t writes back is block t of the result. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S128x8192) hz, View.ld_unit_zero (S := S8192x256) hz,
    View.ld_unit_zero (S := S128x256) hz, View.ld_unit_zero (S := S512x256) hz, View.ld_unit_zero (S := S256x64) hz]
  funext y
  obtain ⟨p, j, rfl⟩ : ∃ (p : Fin 128) (j : Fin 64), y = ix2 p j := ⟨y 0, y 1, eq_ix2 y⟩
  rw [View.read_apply, out_emb t p j]
  refine (Cert.KernelIdeal.Rows.pay1_apply (iblk1 V c 0 t) (iblk1 V c 1 t) (iblk1 V c 2 t) (iblk1 V c 3 t) (iblk1 V c 4 t) p j).trans ?_
  refine Eq.trans ?_ (Cert.Sage.layer2_apply (V c main_arg5) (V c main_v14) (V c main_v21) (V c main_arg7) (V c main_arg8) ⟨128 * t.val + p.val, row_lt t p⟩ j).symm
  rw [table_blk V c t, weight_blk V c t, cls_blk V c t,
    show (fun l => (iblk1 V c 0 t : Vec Ideal S128x8192 .f32) (ix2 p l)) = fun l => (V c main_arg5 : S1024x8192.Idx → EReal) (ix2 ⟨128 * t.val + p.val, row_lt t p⟩ l) from funext fun l => mask_blk V c t p l,
    show (fun k => (iblk1 V c 2 t : Vec Ideal S128x256 .f32) (ix2 p k)) = fun k => (V c main_v21 : S1024x256.Idx → EReal) (ix2 ⟨128 * t.val + p.val, row_lt t p⟩ k) from funext fun k => self_blk V c t p k]

/-- An index of the result array is in point t's block iff its row is one of the block's rows. -/
theorem mem_blk (t : Fin cfg1.N) (i : S1024x64.Idx) :
    i ∈ ((cfg1.win 5).blk t).view.set ↔ ∀ a : Fin 2, win1_5.index t a * S128x64.size a ≤ (i a).val ∧ (i a).val < win1_5.index t a * S128x64.size a + S128x64.size a := by
  show i ∈ ((View.whole main_v22).slice (win1_5.rect t)).set ↔ _
  rw [View.set_slice_whole, Rect.mem_set_unit]
  exact Iff.rfl

/-- Every index of the result array lies in some point's block: row r in block r / 128. -/
theorem cover (i : S1024x64.Idx) : ∃ t : Fin cfg1.N, (cfg1.win 5).flush t = true ∧ i ∈ ((cfg1.win 5).blk t).view.set := by
  have hi0 : (i 0).val < 1024 := (i 0).isLt
  have hi1 : (i 1).val < 64 := (i 1).isLt
  have hN : cfg1.N = 8 := N_1
  refine ⟨⟨(i 0).val / 128, by omega⟩, flush1_5 _, ?_⟩
  rw [mem_blk]
  obtain ⟨-, -, -, -, -, -, -, -, -, -, e0, e1⟩ := idx_facts ⟨(i 0).val / 128, by omega⟩
  intro a
  match a with
  | ⟨0, _⟩ =>
    show win1_5.index ⟨(i 0).val / 128, _⟩ (0 : Fin 2) * 128 ≤ (i 0).val ∧ (i 0).val < win1_5.index ⟨(i 0).val / 128, _⟩ (0 : Fin 2) * 128 + 128
    rw [e0]; show (i 0).val / 128 * 128 ≤ (i 0).val ∧ (i 0).val < (i 0).val / 128 * 128 + 128; omega
  | ⟨1, _⟩ =>
    show win1_5.index ⟨(i 0).val / 128, _⟩ (1 : Fin 2) * 64 ≤ (i 1).val ∧ (i 1).val < win1_5.index ⟨(i 0).val / 128, _⟩ (1 : Fin 2) * 64 + 64
    rw [e1]; omega

/-- The result array after the call is the second layer of the arrays the call found. -/
theorem final (c : Dev nD) : (dat1 V c).arrAt 5 cfg1.N = result V c :=
  (dat1 V c).arrAt_eq_of_cover 5 (result V c) (fun t _ => flushed_eq V c t) (fun i => cover i)

end Cert.KernelIdeal.Region1

end
-- ==== Proof.KWhole.lean ====
/-
  The kernel program's result as the network of its arguments.

  The program is two host stretches and two pallas_calls. The first stretch gathers the neighbour table and the
  first self features; the first call leaves the first layer; the second stretch gathers the second self features
  from it; the second call leaves the second layer with the classifier. Read back through the four segment
  boundaries, the result array holds `net` of the argument arrays.
-/
import proofs.«163042_j15985868276246_1_alg».proof.Proof.Gen.KernelIdeal.Frame
import proofs.«163042_j15985868276246_1_alg».proof.Proof.KRegion0
import proofs.«163042_j15985868276246_1_alg».proof.Proof.KRegion1
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

section Stretches

variable {F : FTy → Type} [FloatOps F]
variable (m : (ℓ : Loc nD τ sig) → Buf (Elt F) ℓ) (ρ : Dev nD → PrngReg)

/-! ## What the first call finds: the first stretch's gathers, and two arguments untouched -/

theorem entry0_table (c : Dev nD) :
    V1 m ρ c main_v6 = Cert.Sage.take0 (m ((c : Thread nD τ).loc main_arg0)) (m ((c : Thread nD τ).loc main_arg1)) := by
  show StableHlo.after hostOps0 (W0 m ρ c) (Proc.devRef .tc main_v6) = _
  after_results
  rfl

theorem entry0_self (c : Dev nD) :
    V1 m ρ c main_v13 = Cert.Sage.take1 (Cert.Sage.take0 (m ((c : Thread nD τ).loc main_arg0)) (m ((c : Thread nD τ).loc main_arg1))) (m ((c : Thread nD τ).loc main_arg2)) := by
  show StableHlo.after hostOps0 (W0 m ρ c) (Proc.devRef .tc main_v13) = _
  after_results
  rfl

theorem entry0_mask (c : Dev nD) : V1 m ρ c main_arg4 = (m ((c : Thread nD τ).loc main_arg4)) := by
  show StableHlo.after hostOps0 (W0 m ρ c) (Proc.devRef .tc main_arg4) = _
  after_results

theorem entry0_weight (c : Dev nD) : V1 m ρ c main_arg6 = (m ((c : Thread nD τ).loc main_arg6)) := by
  show StableHlo.after hostOps0 (W0 m ρ c) (Proc.devRef .tc main_arg6) = _
  after_results

/-! ## An argument no segment has written yet still holds its launch contents at the first call's exit -/

theorem exit0_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results)
theorem exit0_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results)
theorem exit0_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results)
theorem exit0_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results)

/-! ## What the second call finds: the first call's result, the second stretch's gather from it, three arguments -/

theorem entry1_table (c : Dev nD) : V3 m ρ c main_v14 = W2 m ρ c (Proc.devRef .tc main_v14) := by
  show StableHlo.after hostOps1 (W2 m ρ c) (Proc.devRef .tc main_v14) = _
  after_results

theorem entry1_self (c : Dev nD) :
    V3 m ρ c main_v21 = Cert.Sage.take2 (W2 m ρ c (Proc.devRef .tc main_v14)) (m ((c : Thread nD τ).loc main_arg3)) := by
  rw [← exit0_arg3 m ρ c]
  show StableHlo.after hostOps1 (W2 m ρ c) (Proc.devRef .tc main_v21) = _
  after_results
  rfl

theorem entry1_mask (c : Dev nD) : V3 m ρ c main_arg5 = (m ((c : Thread nD τ).loc main_arg5)) := by
  rw [← exit0_arg5 m ρ c]
  show StableHlo.after hostOps1 (W2 m ρ c) (Proc.devRef .tc main_arg5) = _
  after_results

theorem entry1_weight (c : Dev nD) : V3 m ρ c main_arg7 = (m ((c : Thread nD τ).loc main_arg7)) := by
  rw [← exit0_arg7 m ρ c]
  show StableHlo.after hostOps1 (W2 m ρ c) (Proc.devRef .tc main_arg7) = _
  after_results

theorem entry1_cls (c : Dev nD) : V3 m ρ c main_arg8 = (m ((c : Thread nD τ).loc main_arg8)) := by
  rw [← exit0_arg8 m ρ c]
  show StableHlo.after hostOps1 (W2 m ρ c) (Proc.devRef .tc main_arg8) = _
  after_results

end Stretches

/-! ## The result array -/

variable (m : (ℓ : Loc nD τ sig) → Buf (Elt Ideal) ℓ) (ρ : Dev nD → PrngReg)

/-- The first call's result array at its exit: the first layer of the arguments. -/
theorem exit0_layer (c : Dev nD) :
    W2 m ρ c (Proc.devRef .tc main_v14)
      = Cert.Sage.layer1 (F := Ideal) (m ((c : Thread nD τ).loc main_arg4)) (Cert.Sage.take0 (m ((c : Thread nD τ).loc main_arg0)) (m ((c : Thread nD τ).loc main_arg1)))
          (Cert.Sage.take1 (Cert.Sage.take0 (m ((c : Thread nD τ).loc main_arg0)) (m ((c : Thread nD τ).loc main_arg1))) (m ((c : Thread nD τ).loc main_arg2))) (m ((c : Thread nD τ).loc main_arg6)) := by
  refine (W2_arr m ρ c 4).trans ((Region0.final (V1 m ρ) c).trans ?_)
  show Cert.Sage.layer1 (F := Ideal) (V1 m ρ c main_arg4) (V1 m ρ c main_v6) (V1 m ρ c main_v13) (V1 m ρ c main_arg6) = _
  rw [entry0_mask m ρ c, entry0_table m ρ c, entry0_self m ρ c, entry0_weight m ρ c]

/-- The program's result array at the last boundary: the network of the arguments. -/
theorem result_eq (c : Dev nD) :
    W4 m ρ c (Proc.devRef .tc main_v22)
      = Cert.Sage.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Region1.final (V3 m ρ) c).trans ?_)
  show Cert.Sage.layer2 (F := Ideal) (V3 m ρ c main_arg5) (V3 m ρ c main_v14) (V3 m ρ c main_v21) (V3 m ρ c main_arg7) (V3 m ρ c main_arg8) = _
  rw [entry1_mask m ρ c, entry1_table m ρ c, entry1_self m ρ c, entry1_weight m ρ c, entry1_cls m ρ c, exit0_layer m ρ c]
  rfl

end Cert.KernelIdeal.Whole

end
-- ==== Proof.lean ====
/-
  A two-layer GraphSAGE forward pass — gather, [self | mask · f] · W with relu, gather, the same again, a classifier
  and the logistic function — computed by two Pallas kernels with host gathers around them, against the plain jnp
  program. Over the extended reals the two compute one function of the nine arguments, `Cert.Sage.net`:

  * the jnp program's result term IS `net` of its arguments, operation for operation;
  * the kernel program's result array is read back through its four segments: each pallas_call writes, block of 128
    rows by block, the rows of the layer it computes (a change of float format is the identity, a matrix product into
    a zero accumulator is the host's product, `tpu.logistic` is one over one plus the exponential of the negation),
    and the host gathers between them are the jnp program's own.

  No law of arithmetic beyond reading both sides entry by entry is needed, so the precondition is never opened.
  The frames of the two kernel programs are the generated ones; the reference's frame is its generated run with the
  result dropped; the idealization rewrote nothing, so `preserves` is trivial.
-/
import proofs.«163042_j15985868276246_1_alg».proof.Defs
import proofs.«163042_j15985868276246_1_alg».proof.Proof.Gen.Kernel
import proofs.«163042_j15985868276246_1_alg».proof.Proof.Gen.Kernel.Skeleton
import proofs.«163042_j15985868276246_1_alg».proof.Proof.Gen.Kernel.Launch
import proofs.«163042_j15985868276246_1_alg».proof.Proof.Gen.Kernel.Points
import proofs.«163042_j15985868276246_1_alg».proof.Proof.Gen.Kernel.Frame
import proofs.«163042_j15985868276246_1_alg».proof.Proof.Gen.KernelIdeal
import proofs.«163042_j15985868276246_1_alg».proof.Proof.Gen.KernelIdeal.Skeleton
import proofs.«163042_j15985868276246_1_alg».proof.Proof.Gen.KernelIdeal.Launch
import proofs.«163042_j15985868276246_1_alg».proof.Proof.Gen.KernelIdeal.Points
import proofs.«163042_j15985868276246_1_alg».proof.Proof.Gen.KernelIdeal.Frame
import proofs.«163042_j15985868276246_1_alg».proof.Proof.Gen.ReferenceIdeal
import proofs.«163042_j15985868276246_1_alg».proof.Proof.Gen.Pre_finite_inputs
import proofs.«163042_j15985868276246_1_alg».proof.Proof.Gen.ReferenceIdeal.Run
import proofs.«163042_j15985868276246_1_alg».proof.Proof.Gen.ReferenceIdeal.Read
import proofs.«163042_j15985868276246_1_alg».proof.Proof.Spec
import proofs.«163042_j15985868276246_1_alg».proof.Proof.KernelRun
import proofs.«163042_j15985868276246_1_alg».proof.Proof.KWhole
import Idealize.ShloMosaic.Adequacy
import Idealize.ShloMosaic.Init

noncomputable section

namespace Cert.Proof

open Idealize.ShloMosaic Idealize.SL.Sem

/-- The jnp program's result term is the network of its arguments: the same host operations in the same order. -/
theorem reference_is_net {F : FTy → Type} [FloatOps F]
    (m : (ℓ : Loc Cert.ReferenceIdeal.nD Cert.ReferenceIdeal.τ Cert.ReferenceIdeal.sig) → Buf (Elt F) ℓ)
    (c : Dev Cert.ReferenceIdeal.nD) :
    Cert.ReferenceIdeal.Value.res_main_v35 m c
      = Cert.Sage.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) := by
  unfold Cert.ReferenceIdeal.Value.res_main_v35
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) arguments in their result arrays. -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.result_eq m ρ c), (h c).2⟩)
      (Cert.KernelIdeal.ValueRun.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [reference_is_net, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
